-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_v16) = v1 c
          ∧ r.2.mem ((c.tc : Thread Cert.ReferenceIdeal.nD Cert.ReferenceIdeal.τ).loc Cert.ReferenceIdeal.main_v9) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192 : Shape := ⟨1, ![8192]⟩
abbrev S1x8192 : Shape := ⟨2, ![1, 8192]⟩
abbrev S8192x8192 : Shape := ⟨2, ![8192, 8192]⟩
abbrev S_ : Shape := ⟨0, ![]⟩

class Facts : Prop where
  bcast_S_S8192 : S_.BroadcastsInDim S8192 (![] : Fin 0 → Fin S8192.rank)
  reducesTo_S8192_S_d0 : S8192.ReducesTo [0] S_
  h_S_ : 0 < S_.numel
  bcast_S_S1x8192 : S_.BroadcastsInDim S1x8192 (![] : Fin 0 → Fin S1x8192.rank)
  reducesTo_S1x8192_S_d0_1 : S1x8192.ReducesTo [0, 1] S_
  bcast_S_S8192x8192 : S_.BroadcastsInDim S8192x8192 (![] : Fin 0 → Fin S8192x8192.rank)
  reducesTo_S8192x8192_S_d0_1 : S8192x8192.ReducesTo [0, 1] S_

variable [Facts]

def fn_part1 {F : FTy → Type} [FloatOps F] (main_v13 : IVec S_ 1) (main_v16 : IVec S8192x8192 1) : IVec S_ 1 :=
  let main_c_5 : IVec S_ 1 := constantI S_ 1 1#1
  let main_v17 : IVec S_ 1 := (fun x v => Host.reduce IntOp.andi x v reducesTo_S8192x8192_S_d0_1 h_S_) main_v16 main_c_5
  let main_v18 : IVec S_ 1 := andi main_v13 main_v17
  main_v18

def fn {F : FTy → Type} [FloatOps F] (main_arg0 : FVec F S8192 .f32) (main_arg1 : FVec F S1x8192 .f32) (main_arg2 : FVec F S8192x8192 .f32) (main_arg3 : FVec F S8192x8192 .f32) : IVec S_ 1 :=
  let main_v0 : FVec F S8192 .f32 := Host.absf main_arg0
  let main_cst : FVec F S_ .f32 := constant S_ .f32 0x7F800000#32
  let main_v1 : FVec F S8192 .f32 := broadcastInDim S8192 ![] bcast_S_S8192 main_cst
  let main_v2 : IVec S8192 1 := cmpf .olt main_v0 main_v1
  let main_c : IVec S_ 1 := constantI S_ 1 1#1
  let main_v3 : IVec S_ 1 := (fun x v => Host.reduce IntOp.andi x v reducesTo_S8192_S_d0 h_S_) main_v2 main_c
  let main_v4 : FVec F S1x8192 .f32 := Host.absf main_arg1
  let main_cst_0 : FVec F S_ .f32 := constant S_ .f32 0x7F800000#32
  let main_v5 : FVec F S1x8192 .f32 := broadcastInDim S1x8192 ![] bcast_S_S1x8192 main_cst_0
  let main_v6 : IVec S1x8192 1 := cmpf .olt main_v4 main_v5
  let main_c_1 : IVec S_ 1 := constantI S_ 1 1#1
  let main_v7 : IVec S_ 1 := (fun x v => Host.reduce IntOp.andi x v reducesTo_S1x8192_S_d0_1 h_S_) main_v6 main_c_1
  let main_v8 : IVec S_ 1 := andi main_v3 main_v7
  let main_v9 : FVec F S8192x8192 .f32 := Host.absf main_arg2
  let main_cst_2 : FVec F S_ .f32 := constant S_ .f32 0x7F800000#32
  let main_v10 : FVec F S8192x8192 .f32 := broadcastInDim S8192x8192 ![] bcast_S_S8192x8192 main_cst_2
  let main_v11 : IVec S8192x8192 1 := cmpf .olt main_v9 main_v10
  let main_c_3 : IVec S_ 1 := constantI S_ 1 1#1
  let main_v12 : IVec S_ 1 := (fun x v => Host.reduce IntOp.andi x v reducesTo_S8192x8192_S_d0_1 h_S_) main_v11 main_c_3
  let main_v13 : IVec S_ 1 := andi main_v8 main_v12
  let main_v14 : FVec F S8192x8192 .f32 := Host.absf main_arg3
  let main_cst_4 : FVec F S_ .f32 := constant S_ .f32 0x7F800000#32
  let main_v15 : FVec F S8192x8192 .f32 := broadcastInDim S8192x8192 ![] bcast_S_S8192x8192 main_cst_4
  let main_v16 : IVec S8192x8192 1 := cmpf .olt main_v14 main_v15
  fn_part1 (F := F) main_v13 main_v16
-- ==== Kernel.lean ====
abbrev S8192 : Shape := ⟨1, ![8192]⟩
abbrev S1x8192 : Shape := ⟨2, ![1, 8192]⟩
abbrev S8192x8192 : Shape := ⟨2, ![8192, 8192]⟩
abbrev S512 : Shape := ⟨1, ![512]⟩
abbrev S1x2048 : Shape := ⟨2, ![1, 2048]⟩
abbrev S512x2048 : Shape := ⟨2, ![512, 2048]⟩
abbrev S512x1 : Shape := ⟨2, ![512, 1]⟩
abbrev S2048 : Shape := ⟨1, ![2048]⟩
abbrev S_ : Shape := ⟨0, ![]⟩

abbrev nBuf : Space → Nat
  | .hbm => 11
  | .vmem => 15
  | .smem => 0
  | _ => 0

abbrev bufTy : (tb : Table) → Fin (tcTables nBuf tb) → BufTy
  | .hbm, ⟨0, _⟩ => ⟨S8192, .f32⟩
  | .hbm, ⟨1, _⟩ => ⟨S1x8192, .f32⟩
  | .hbm, ⟨2, _⟩ => ⟨S8192x8192, .f32⟩
  | .hbm, ⟨3, _⟩ => ⟨S8192x8192, .f32⟩
  | .hbm, ⟨4, _⟩ => ⟨S1x8192, .i32⟩
  | .hbm, ⟨5, _⟩ => ⟨S1x8192, .f32⟩
  | .hbm, ⟨6, _⟩ => ⟨S8192x8192, .f32⟩
  | .hbm, ⟨7, _⟩ => ⟨S_, .i32⟩
  | .hbm, ⟨8, _⟩ => ⟨S1x8192, .i32⟩
  | .hbm, ⟨9, _⟩ => ⟨S1x8192, .i1⟩
  | .hbm, ⟨10, _⟩ => ⟨S1x8192, .i1⟩
  | .local _ .vmem, ⟨0, _⟩ => ⟨S512, .f32⟩
  | .local _ .vmem, ⟨1, _⟩ => ⟨S512, .f32⟩
  | .local _ .vmem, ⟨2, _⟩ => ⟨S1x2048, .f32⟩
  | .local _ .vmem, ⟨3, _⟩ => ⟨S1x2048, .f32⟩
  | .local _ .vmem, ⟨4, _⟩ => ⟨S512x2048, .f32⟩
  | .local _ .vmem, ⟨5, _⟩ => ⟨S512x2048, .f32⟩
  | .local _ .vmem, ⟨6, _⟩ => ⟨S512x2048, .f32⟩
  | .local _ .vmem, ⟨7, _⟩ => ⟨S512x2048, .f32⟩
  | .local _ .vmem, ⟨8, _⟩ => ⟨S1x2048, .i32⟩
  | .local _ .vmem, ⟨9, _⟩ => ⟨S1x2048, .i32⟩
  | .local _ .vmem, ⟨10, _⟩ => ⟨S1x2048, .f32⟩
  | .local _ .vmem, ⟨11, _⟩ => ⟨S1x2048, .f32⟩
  | .local _ .vmem, ⟨12, _⟩ => ⟨S512x2048, .f32⟩
  | .local _ .vmem, ⟨13, _⟩ => ⟨S512x2048, .f32⟩
  | .local _ .vmem, ⟨14, _⟩ => ⟨S1x2048, .f32⟩
  | _, _ => ⟨S8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![4, 16], ![false, false]⟩

def k0_cond2 (i : grid0.Coords) : BitVec 1 :=
  let arg1 : BitVec 32 := BitVec.ofNat 32 (i 1).val
  let c15_i32 : BitVec 32 := 15#32
  let v20 : BitVec 1 := Scalar.cmpi .eq arg1 c15_i32
  let v21 : BitVec 32 := Scalar.extui v20
  let c0_i32_12 : BitVec 32 := 0#32
  let v22 : BitVec 1 := Scalar.cmpi .ne v21 c0_i32_12
  v22

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  ![arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2048 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

class Facts₀ : Prop where
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  inb_S512_S512_0 : ∀ a, (![0] : Fin 1 → Nat) a + S512.size a ≤ S512.size a
  h_S512 : 0 < S512.numel
  inb_S512x2048_S512x2048_0_0 : ∀ a, (![0, 0] : Fin 2 → Nat) a + S512x2048.size a ≤ S512x2048.size a
  h_S512x2048 : 0 < S512x2048.numel
  shapeCasts_S512_S512x1 : S512.ShapeCasts S512x1
  broadcasts_S512x1_S512x2048 : S512x1.Broadcasts S512x2048
  reduces_S512x2048_S2048 : S512x2048.Reduces [0] S2048
  shapeCasts_S2048_S1x2048 : S2048.ShapeCasts S1x2048
  natLt_1_32 : 1 < 32
  bcast_S_S1x8192 : S_.BroadcastsInDim S1x8192 (![] : Fin 0 → Fin S1x8192.rank)
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512.size a ≤ S8192.size a
  hwx0_0 : ∀ i : grid0.Coords, EltTy.bits .f32 = 32 ∨ (Rect.block (s := S8192) S512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048.size a ≤ S1x8192.size a
  hwx0_1 : ∀ i : grid0.Coords, EltTy.bits .f32 = 32 ∨ (Rect.block (s := S1x8192) S1x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x2048.size a ≤ S8192x8192.size a
  hwx0_2 : ∀ i : grid0.Coords, EltTy.bits .f32 = 32 ∨ (Rect.block (s := S8192x8192) S512x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x2048.size a ≤ S8192x8192.size a
  hwx0_3 : ∀ i : grid0.Coords, EltTy.bits .f32 = 32 ∨ (Rect.block (s := S8192x8192) S512x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x2048.size a ≤ S1x8192.size a
  hwx0_4 : ∀ i : grid0.Coords, EltTy.bits .i32 = 32 ∨ (Rect.block (s := S1x8192) S1x2048.size (cc0_transform_4 i) (hinb0_4 i)).WholeWords (EltTy.packing .i32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x2048.size a ≤ S1x8192.size a
  hwx0_5 : ∀ i : grid0.Coords, EltTy.bits .f32 = 32 ∨ (Rect.block (s := S1x8192) S1x2048.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x2048.size a ≤ S8192x8192.size a
  hwx0_6 : ∀ i : grid0.Coords, EltTy.bits .f32 = 32 ∨ (Rect.block (s := S8192x8192) S512x2048.size (cc0_transform_6 i) (hinb0_6 i)).WholeWords (EltTy.packing .f32)

variable [Facts₀]

abbrev win0_0 : Pipeline.Window sig grid0 :=
  Pipeline.Window.ofSpec (Memref.whole main_arg0) S512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S512x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_0) S1x2048.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0_1) S1x2048.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v0_2) S512x2048.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun i => !(k0_cond2 i == 1#1) | 5 => fun i => !(k0_cond2 i == 1#1) | 6 => fun _ => false | ⟨_ + 7, h⟩ => absurd h (Nat.not_lt.2 (Nat.le_add_left _ _))

class Facts : Prop extends Facts₀ where

variable [Facts]
-- ==== ReferenceIdeal.lean ====
abbrev S8192 : Shape := ⟨1, ![8192]⟩
abbrev S1x8192 : Shape := ⟨2, ![1, 8192]⟩
abbrev S8192x8192 : Shape := ⟨2, ![8192, 8192]⟩
abbrev S_ : Shape := ⟨0, ![]⟩
abbrev S8192x1 : Shape := ⟨2, ![8192, 1]⟩

abbrev nBuf : Space → Nat
  | .hbm => 26
  | .vmem => 0
  | .smem => 0
  | _ => 0

abbrev bufTy : (tb : Table) → Fin (tcTables nBuf tb) → BufTy
  | .hbm, ⟨0, _⟩ => ⟨S8192, .f32⟩
  | .hbm, ⟨1, _⟩ => ⟨S1x8192, .f32⟩
  | .hbm, ⟨2, _⟩ => ⟨S8192x8192, .f32⟩
  | .hbm, ⟨3, _⟩ => ⟨S8192x8192, .f32⟩
  | .hbm, ⟨4, _⟩ => ⟨S_, .f32⟩
  | .hbm, ⟨5, _⟩ => ⟨S1x8192, .f32⟩
  | .hbm, ⟨6, _⟩ => ⟨S1x8192, .f32⟩
  | .hbm, ⟨7, _⟩ => ⟨S_, .f32⟩
  | .hbm, ⟨8, _⟩ => ⟨S1x8192, .f32⟩
  | .hbm, ⟨9, _⟩ => ⟨S1x8192, .i1⟩
  | .hbm, ⟨10, _⟩ => ⟨S_, .f32⟩
  | .hbm, ⟨11, _⟩ => ⟨S8192x8192, .f32⟩
  | .hbm, ⟨12, _⟩ => ⟨S8192x8192, .f32⟩
  | .hbm, ⟨13, _⟩ => ⟨S8192x1, .f32⟩
  | .hbm, ⟨14, _⟩ => ⟨S8192x8192, .f32⟩
  | .hbm, ⟨15, _⟩ => ⟨S8192x8192, .f32⟩
  | .hbm, ⟨16, _⟩ => ⟨S8192x8192, .f32⟩
  | .hbm, ⟨17, _⟩ => ⟨S_, .f32⟩
  | .hbm, ⟨18, _⟩ => ⟨S8192, .f32⟩
  | .hbm, ⟨19, _⟩ => ⟨S1x8192, .f32⟩
  | .hbm, ⟨20, _⟩ => ⟨S1x8192, .f32⟩
  | .hbm, ⟨21, _⟩ => ⟨S1x8192, .f32⟩
  | .hbm, ⟨22, _⟩ => ⟨S_, .f32⟩
  | .hbm, ⟨23, _⟩ => ⟨S1x8192, .f32⟩
  | .hbm, ⟨24, _⟩ => ⟨S1x8192, .f32⟩
  | .hbm, ⟨25, _⟩ => ⟨S1x8192, .f32⟩
  | _, _ => ⟨S8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_3 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩

abbrev nD : Nat := 1
abbrev τ : Topo := Topo.v7x

variable {F : FTy → Type} [FloatOps F]

class Facts₀ : Prop where
  bcast_S_S1x8192 : S_.BroadcastsInDim S1x8192 (![] : Fin 0 → Fin S1x8192.rank)
  bcast_S_S8192x8192 : S_.BroadcastsInDim S8192x8192 (![] : Fin 0 → Fin S8192x8192.rank)
  bcast_S8192_S8192x1_0 : S8192.BroadcastsInDim S8192x1 (![0] : Fin 1 → Fin S8192x1.rank)
  bcast_S8192x1_S8192x8192_0_1 : S8192x1.BroadcastsInDim S8192x8192 (![0, 1] : Fin 2 → Fin S8192x8192.rank)
  reducesTo_S8192x8192_S8192_d0 : S8192x8192.ReducesTo [0] S8192
  h_S_ : 0 < S_.numel
  bcast_S8192_S1x8192_1 : S8192.BroadcastsInDim S1x8192 (![1] : Fin 1 → Fin S1x8192.rank)

variable [Facts₀]

class Facts : Prop extends Facts₀ where

variable [Facts]
-- ==== Proof.LifStep.lean ====
/-
  One step of a leaky integrate-and-fire layer, as functions of its four argument arrays over the extended
  reals: the input spikes `spk` (8192), the membrane voltages `vol` (1 × 8192), the synapse state `syn` and the
  weights `wts` (8192 × 8192 each).

    synNext r q  = syn r q · a + wts r q · spk r          (a the synapse decay)
    decayed q    = vol q · b                               (b the voltage decay)
    fired q      = [decayed q ≥ θ]                         (θ the threshold, 1)
    voltNext q   = (decayed q + Σ_r synNext r q) − fired q · θ

  The one law that a tiled evaluation of the column sum needs is that a sum over the 8192 rows is the sum, tile after
  tile, of sixteen sums over 512 consecutive rows: addition of extended reals is commutative and associative, so
  no finiteness is asked of the entries.
-/
import Idealize.ShloMosaic.PureOps.Ideal
import Idealize.ShloMosaic.PureOps.Ideal.Laws
import Idealize.ShloMosaic.Lib.ValueIdx

noncomputable section

open Idealize.ShloMosaic Idealize.ShloMosaic.ValueIdx

namespace Cert.LifStep

/-- The shapes of the arguments: a vector over the rows, a one-row matrix over the columns, a square matrix. -/
abbrev Rows : Shape := ⟨1, ![8192]⟩
abbrev RowVec : Shape := ⟨2, ![1, 8192]⟩
abbrev Mat : Shape := ⟨2, ![8192, 8192]⟩

/-- The synapse decay, the voltage decay and the threshold: the f32 words both programs carry, never evaluated. -/
abbrev synDecay : EReal := Ideal.ofBits .f32 0x3F7AEE4D#32
abbrev voltDecay : EReal := Ideal.ofBits .f32 0x3F7D73E8#32
abbrev thresh : EReal := Ideal.ofBits .f32 0x3F800000#32

/-- The synapse state after the step: decayed, plus the weight times the row's input spike. -/
def synNext (spk : Rows.Idx → EReal) (syn wts : Mat.Idx → EReal) : Mat.Idx → EReal :=
  fun i => syn i * synDecay + wts i * spk (ix1 (i 0))

/-- The decayed voltage. -/
def decayed (vol : RowVec.Idx → EReal) : RowVec.Idx → EReal := fun i => vol i * voltDecay

/-- Which neurons fire: the decayed voltage has reached the threshold. -/
def fired (vol : RowVec.Idx → EReal) : RowVec.Idx → BitVec 1 := fun i => Ideal.cmp .oge (decayed vol i) thresh

/-- Column `q` of the new synapse state, summed over all rows. -/
def colSum (spk : Rows.Idx → EReal) (syn wts : Mat.Idx → EReal) (q : Fin 8192) : EReal :=
  ∑ r : Fin 8192, synNext spk syn wts (ix2 r q)

/-- The voltage after the step: decayed, plus the column's synaptic input, minus the threshold where it fired. -/
def voltNext (spk : Rows.Idx → EReal) (vol : RowVec.Idx → EReal) (syn wts : Mat.Idx → EReal) : RowVec.Idx → EReal :=
  fun i => (decayed vol i + colSum spk syn wts (i 1)) - (((fired vol i).toNat : ℝ) : EReal) * thresh

/-! ## A sum over the rows, sixteen tiles of 512 rows at a time -/

section Tiles

variable {M : Type*} [AddCommMonoid M]

/-- The rows of the first `n` tiles. -/
def rowsBelow (n : ℕ) : Finset (Fin 8192) := Finset.univ.filter fun r => r.val < 512 * n

/-- Row `k` of tile `n`. -/
def tileRow (n : ℕ) (hn : n < 16) : Fin 512 ↪ Fin 8192 :=
  ⟨fun k => ⟨512 * n + k.val, by have := k.isLt; omega⟩, fun a b h => Fin.ext (by
    have e : 512 * n + a.val = 512 * n + b.val := congrArg Fin.val h
    omega)⟩

theorem tileRow_val (n : ℕ) (hn : n < 16) (k : Fin 512) : (tileRow n hn k).val = 512 * n + k.val := rfl

/-- No tile yet: the empty sum. -/
theorem sum_rowsBelow_zero (f : Fin 8192 → M) : ∑ r ∈ rowsBelow 0, f r = 0 := by
  have h : rowsBelow 0 = ∅ := by
    ext r; simp [rowsBelow]
  rw [h, Finset.sum_empty]

/-- One more tile: its 512 rows join the sum. -/
theorem sum_rowsBelow_succ (f : Fin 8192 → M) (n : ℕ) (hn : n < 16) :
    ∑ r ∈ rowsBelow (n + 1), f r = ∑ r ∈ rowsBelow n, f r + ∑ k : Fin 512, f (tileRow n hn k) := by
  have hsplit : rowsBelow (n + 1) = rowsBelow n ∪ Finset.univ.map (tileRow n hn) := by
    ext r
    simp only [rowsBelow, Finset.mem_filter, Finset.mem_univ, true_and, Finset.mem_union, Finset.mem_map]
    constructor
    · intro h
      by_cases h' : r.val < 512 * n
      · exact Or.inl h'
      · exact Or.inr ⟨⟨r.val - 512 * n, by omega⟩, Fin.ext (by rw [tileRow_val]; show 512 * n + (r.val - 512 * n) = r.val; omega)⟩
    · rintro (h | ⟨k, rfl⟩)
      · omega
      · rw [tileRow_val]; have := k.isLt; omega
  have hdisj : Disjoint (rowsBelow n) (Finset.univ.map (tileRow n hn)) := by
    rw [Finset.disjoint_left]
    intro r hr hr'
    simp only [rowsBelow, Finset.mem_filter, Finset.mem_univ, true_and] at hr
    obtain ⟨k, -, rfl⟩ := Finset.mem_map.mp hr'
    rw [tileRow_val] at hr
    omega
  rw [hsplit, Finset.sum_union hdisj, Finset.sum_map]

/-- All sixteen tiles: every row. -/
theorem sum_rowsBelow_all (f : Fin 8192 → M) : ∑ r ∈ rowsBelow 16, f r = ∑ r, f r := by
  have h : rowsBelow 16 = Finset.univ := by
    ext r; have := r.isLt; simp [rowsBelow]
  rw [h]

end Tiles

end Cert.LifStep

end
-- ==== Proof.RefStep.lean ====
/-
  The reference computes the layer step of `LifStep`: read one operation at a time, index by index, its three
  results are `fired`, `voltNext` and `synNext` of its four arguments. The column sum is the host's reduction
  over the row axis from the zero word, and `0 + s = s` on the extended reals.
-/
import proofs.«133276_j2894807957745_1_alg».proof.Proof.Gen.ReferenceIdeal.Read
import proofs.«133276_j2894807957745_1_alg».proof.Proof.LifStep
import Idealize.ShloMosaic.Lib.ValueIdx

noncomputable section

open Idealize.ShloMosaic Idealize.ShloMosaic.ValueIdx

namespace Cert.ReferenceIdeal.RefStep

open Cert.ReferenceIdeal Cert.ReferenceIdeal.Read Cert.LifStep

/-- The new synapse state: entry (r, q) reads the spike vector at r through the two broadcasts. -/
theorem syn_eq (x0 : (⟨S8192, .f32⟩ : BufTy).Contents (Elt Ideal)) (x2 x3 : (⟨S8192x8192, .f32⟩ : BufTy).Contents (Elt Ideal)) :
    val_main_v9 (F := Ideal) x0 x2 x3 = synNext x0 x2 x3 := by
  funext i
  have e : idx_main_v6 (idx_main_v7 i) = ix1 (i 0) := funext fun a => Fin.ext (by match a with | ⟨0, _⟩ => rfl)
  rw [val_main_v9_apply, val_main_v5_apply, val_main_v8_apply, val_main_v4_apply, val_main_cst_1_apply,
    val_main_v7_apply, val_main_v6_apply, e]
  rfl

/-- Which neurons fire. -/
theorem fired_eq (x1 : (⟨S1x8192, .f32⟩ : BufTy).Contents (Elt Ideal)) :
    val_main_v3 (F := Ideal) x1 = fired x1 := by
  funext i
  rw [val_main_v3_apply, val_main_v1_apply, val_main_v0_apply, val_main_cst_apply, val_main_v2_apply,
    val_main_cst_0_apply]
  rfl

/-- The new voltage: the host's sum over the rows, from zero, is the column sum. -/
theorem volt_eq (x0 : (⟨S8192, .f32⟩ : BufTy).Contents (Elt Ideal)) (x1 : (⟨S1x8192, .f32⟩ : BufTy).Contents (Elt Ideal))
    (x2 x3 : (⟨S8192x8192, .f32⟩ : BufTy).Contents (Elt Ideal)) :
    val_main_v16 (F := Ideal) x0 x1 x2 x3 = voltNext x0 x1 x2 x3 := by
  funext i
  have e : ∀ k : Fin 8192, idx_main_v10 (idx_main_v11 i) k = ix2 k (i 1) := fun k =>
    funext fun a => Fin.ext (by match a with | ⟨0, _⟩ => rfl | ⟨1, _⟩ => rfl)
  rw [val_main_v16_apply, val_main_v12_apply, val_main_v15_apply, val_main_v13_apply, val_main_v14_apply,
    val_main_cst_3_apply, val_main_v11_apply, val_main_v10_apply, val_main_cst_2_apply, fired_eq, syn_eq,
    val_main_v1_apply, val_main_v0_apply, val_main_cst_apply]
  simp only [e]
  show (x1 i * voltDecay + (Ideal.ofBits .f32 0x00000000#32 + colSum x0 x2 x3 (i 1)))
      - (((fired x1 i).toNat : ℝ) : EReal) * thresh = _
  rw [Ideal.ofBits_zero_f32, zero_add]
  rfl

end Cert.ReferenceIdeal.RefStep

end
-- ==== Proof.TileValues.lean ====
/-
  What each of the three kinds of grid step leaves behind, as the body's stored values of the step's input tiles.
  At the first row tile of a column tile the running column sums are reset to zero before the tile's sums are added;
  at the later row tiles they continue from what the step before left; at the last row tile the spikes and the new
  voltages are stored as well, the voltages from the running sums as that same step has just updated them. The
  synapse tile is stored at every step.
-/
import proofs.«133276_j2894807957745_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem Idealize.ShloMosaic.Tactic

namespace Cert.KernelIdeal.TileValues

open Cert.KernelIdeal Cert.KernelIdeal.Gen

variable {F : FTy → Type} [FloatOps F]
variable (c : Dev nD) (i : grid0.Coords) (arg2 : Memref sig .tc .vmem S512 .f32) (harg2 : arg2.IsWhole) (arg3 : Memref sig .tc .vmem S1x2048 .f32) (harg3 : arg3.IsWhole) (arg4 : Memref sig .tc .vmem S512x2048 .f32) (harg4 : arg4.IsWhole) (arg5 : Memref sig .tc .vmem S512x2048 .f32) (harg5 : arg5.IsWhole) (arg6 : Memref sig .tc .vmem S1x2048 .i32) (harg6 : arg6.IsWhole) (arg7 : Memref sig .tc .vmem S1x2048 .f32) (harg7 : arg7.IsWhole) (arg8 : Memref sig .tc .vmem S512x2048 .f32) (harg8 : arg8.IsWhole) (arg9 : Memref sig .tc .vmem S1x2048 .f32) (harg9 : arg9.IsWhole)

theorem hz1 : (![0] : Fin 1 → Nat) = fun _ => 0 := funext fun a => by fin_cases a; rfl
theorem hz2 : (![0, 0] : Fin 2 → Nat) = fun _ => 0 := funext fun a => by fin_cases a <;> rfl

/-! ## The first row tile of a column tile -/

/-- The synapse tile stored at a first row tile. -/
theorem first_syn (hc0 : cond0_0 i) (hc1 : ¬cond0_1 i) (x0 : Vec F S512 .f32) (x1 : Vec F S1x2048 .f32) (x2 x3 : Vec F S512x2048 .f32) :
    out0_A_6 c i arg2 harg2 arg3 harg3 arg4 harg4 arg5 harg5 arg6 harg6 arg7 harg7 arg8 harg8 arg9 harg9 hc0 hc1 x0 x1 x2 x3 = k0_pay2 x0 x2 x3 := by
  unfold out0_A_6
  rw [View.read_writes_eq_canon _ _ _ (cover0_A_6 c i arg2 harg2 arg3 harg3 arg4 harg4 arg5 harg5 arg6 harg6 arg7 harg7 arg8 harg8 arg9 harg9 hc0 hc1 x0 x1 x2 x3)]
  unfold kernelRun0_A
  dsimp only
  sl_unfold_words
  rw [View.canon_unit_zero hz2]
  simp only [View.readAt_eq_ld, harg2.read_unread, harg3.read_unread, harg4.read_unread, harg5.read_unread, harg9.read_unread,
    View.ld_unit_zero (S := S512) hz1, View.ld_unit_zero (S := S512x2048) hz2, View.ld_unit_zero (S := S1x2048) hz2,
    View.readCov_unit_zero (S := S1x2048) _ hz2]

/-- The running sums after a first row tile: reset to zero, then the tile's column sums added. -/
theorem first_acc (hc0 : cond0_0 i) (hc1 : ¬cond0_1 i) (x0 : Vec F S512 .f32) (x1 : Vec F S1x2048 .f32) (x2 x3 : Vec F S512x2048 .f32) :
    sout0_A_0 c i arg2 harg2 arg3 harg3 arg4 harg4 arg5 harg5 arg6 harg6 arg7 harg7 arg8 harg8 arg9 harg9 hc0 hc1 x0 x1 x2 x3 = k0_pay3 x0 x2 x3 k0_pay1 := by
  unfold sout0_A_0
  rw [View.read_writes_eq_canon _ _ _ (scover0_A_0 c i arg2 harg2 arg3 harg3 arg4 harg4 arg5 harg5 arg6 harg6 arg7 harg7 arg8 harg8 arg9 harg9 hc0 hc1 x0 x1 x2 x3)]
  unfold kernelRun0_A
  dsimp only
  sl_unfold_words
  rw [View.canon_cons_unit_zero (S := S1x2048) hz2]
  simp only [View.readAt_eq_ld, harg2.read_unread, harg3.read_unread, harg4.read_unread, harg5.read_unread, harg9.read_unread,
    View.ld_unit_zero (S := S512) hz1, View.ld_unit_zero (S := S512x2048) hz2, View.ld_unit_zero (S := S1x2048) hz2,
    View.readCov_unit_zero (S := S1x2048) _ hz2]

/-! ## A middle row tile -/

/-- The synapse tile stored at a middle row tile. -/
theorem mid_syn (hc0 : ¬cond0_0 i) (hc1 : ¬cond0_1 i) (x0 : Vec F S512 .f32) (x1 : Vec F S1x2048 .f32) (x2 x3 : Vec F S512x2048 .f32) (xs0 : Vec F S1x2048 .f32) :
    out0_B_6 c i arg2 harg2 arg3 harg3 arg4 harg4 arg5 harg5 arg6 harg6 arg7 harg7 arg8 harg8 arg9 harg9 hc0 hc1 x0 x1 x2 x3 xs0 = k0_pay2 x0 x2 x3 := by
  unfold out0_B_6
  rw [View.read_writes_eq_canon _ _ _ (cover0_B_6 c i arg2 harg2 arg3 harg3 arg4 harg4 arg5 harg5 arg6 harg6 arg7 harg7 arg8 harg8 arg9 harg9 hc0 hc1 x0 x1 x2 x3 xs0)]
  unfold kernelRun0_B
  dsimp only
  sl_unfold_words
  rw [View.canon_unit_zero hz2]
  simp only [View.readAt_eq_ld, harg2.read_unread, harg3.read_unread, harg4.read_unread, harg5.read_unread, harg9.read_unread,
    View.ld_unit_zero (S := S512) hz1, View.ld_unit_zero (S := S512x2048) hz2, View.ld_unit_zero (S := S1x2048) hz2,
    View.readCov_unit_zero (S := S1x2048) _ hz2]

/-- The running sums after a middle row tile: the sums before, the tile's column sums added. -/
theorem mid_acc (hc0 : ¬cond0_0 i) (hc1 : ¬cond0_1 i) (x0 : Vec F S512 .f32) (x1 : Vec F S1x2048 .f32) (x2 x3 : Vec F S512x2048 .f32) (xs0 : Vec F S1x2048 .f32) :
    sout0_B_0 c i arg2 harg2 arg3 harg3 arg4 harg4 arg5 harg5 arg6 harg6 arg7 harg7 arg8 harg8 arg9 harg9 hc0 hc1 x0 x1 x2 x3 xs0 = k0_pay3 x0 x2 x3 xs0 := by
  unfold sout0_B_0
  rw [View.read_writes_eq_canon _ _ _ (scover0_B_0 c i arg2 harg2 arg3 harg3 arg4 harg4 arg5 harg5 arg6 harg6 arg7 harg7 arg8 harg8 arg9 harg9 hc0 hc1 x0 x1 x2 x3 xs0)]
  unfold kernelRun0_B
  dsimp only
  sl_unfold_words
  rw [View.canon_unit_zero hz2]
  simp only [View.readAt_eq_ld, harg2.read_unread, harg3.read_unread, harg4.read_unread, harg5.read_unread, harg9.read_unread,
    View.ld_unit_zero (S := S512) hz1, View.ld_unit_zero (S := S512x2048) hz2, View.ld_unit_zero (S := S1x2048) hz2,
    View.readCov_unit_zero (S := S1x2048) _ hz2]

/-! ## The last row tile of a column tile -/

/-- The synapse tile stored at a last row tile. -/
theorem last_syn (hc0 : ¬cond0_0 i) (hc1 : cond0_1 i) (x0 : Vec F S512 .f32) (x1 : Vec F S1x2048 .f32) (x2 x3 : Vec F S512x2048 .f32) (xs0 : Vec F S1x2048 .f32) :
    out0_C_6 c i arg2 harg2 arg3 harg3 arg4 harg4 arg5 harg5 arg6 harg6 arg7 harg7 arg8 harg8 arg9 harg9 hc0 hc1 x0 x1 x2 x3 xs0 = k0_pay2 x0 x2 x3 := by
  unfold out0_C_6
  rw [View.read_writes_eq_canon _ _ _ (cover0_C_6 c i arg2 harg2 arg3 harg3 arg4 harg4 arg5 harg5 arg6 harg6 arg7 harg7 arg8 harg8 arg9 harg9 hc0 hc1 x0 x1 x2 x3 xs0)]
  unfold kernelRun0_C
  dsimp only
  sl_unfold_words
  rw [View.canon_unit_zero hz2]
  simp only [View.readAt_eq_ld, harg2.read_unread, harg3.read_unread, harg4.read_unread, harg5.read_unread, harg9.read_unread,
    View.ld_unit_zero (S := S512) hz1, View.ld_unit_zero (S := S512x2048) hz2, View.ld_unit_zero (S := S1x2048) hz2,
    View.readCov_unit_zero (S := S1x2048) _ hz2]

/-- The running sums after a last row tile. -/
theorem last_acc (hc0 : ¬cond0_0 i) (hc1 : cond0_1 i) (x0 : Vec F S512 .f32) (x1 : Vec F S1x2048 .f32) (x2 x3 : Vec F S512x2048 .f32) (xs0 : Vec F S1x2048 .f32) :
    sout0_C_0 c i arg2 harg2 arg3 harg3 arg4 harg4 arg5 harg5 arg6 harg6 arg7 harg7 arg8 harg8 arg9 harg9 hc0 hc1 x0 x1 x2 x3 xs0 = k0_pay3 x0 x2 x3 xs0 := by
  unfold sout0_C_0
  rw [View.read_writes_eq_canon _ _ _ (scover0_C_0 c i arg2 harg2 arg3 harg3 arg4 harg4 arg5 harg5 arg6 harg6 arg7 harg7 arg8 harg8 arg9 harg9 hc0 hc1 x0 x1 x2 x3 xs0)]
  unfold kernelRun0_C
  dsimp only
  sl_unfold_words
  rw [View.canon_unit_zero hz2]
  simp only [View.readAt_eq_ld, harg2.read_unread, harg3.read_unread, harg4.read_unread, harg5.read_unread, harg9.read_unread,
    View.ld_unit_zero (S := S512) hz1, View.ld_unit_zero (S := S512x2048) hz2, View.ld_unit_zero (S := S1x2048) hz2,
    View.readCov_unit_zero (S := S1x2048) _ hz2]

/-- The spikes stored at a last row tile. -/
theorem last_spikes (hc0 : ¬cond0_0 i) (hc1 : cond0_1 i) (x0 : Vec F S512 .f32) (x1 : Vec F S1x2048 .f32) (x2 x3 : Vec F S512x2048 .f32) (xs0 : Vec F S1x2048 .f32) :
    out0_C_4 c i arg2 harg2 arg3 harg3 arg4 harg4 arg5 harg5 arg6 harg6 arg7 harg7 arg8 harg8 arg9 harg9 hc0 hc1 x0 x1 x2 x3 xs0 = k0_pay7 x1 := by
  unfold out0_C_4
  rw [View.read_writes_eq_canon _ _ _ (cover0_C_4 c i arg2 harg2 arg3 harg3 arg4 harg4 arg5 harg5 arg6 harg6 arg7 harg7 arg8 harg8 arg9 harg9 hc0 hc1 x0 x1 x2 x3 xs0)]
  unfold kernelRun0_C
  dsimp only
  sl_unfold_words
  rw [View.canon_unit_zero hz2]
  simp only [View.readAt_eq_ld, harg2.read_unread, harg3.read_unread, harg4.read_unread, harg5.read_unread, harg9.read_unread,
    View.ld_unit_zero (S := S512) hz1, View.ld_unit_zero (S := S512x2048) hz2, View.ld_unit_zero (S := S1x2048) hz2,
    View.readCov_unit_zero (S := S1x2048) _ hz2]

/-- The voltages stored at a last row tile, from the running sums that step has just completed. -/
theorem last_volt (hc0 : ¬cond0_0 i) (hc1 : cond0_1 i) (x0 : Vec F S512 .f32) (x1 : Vec F S1x2048 .f32) (x2 x3 : Vec F S512x2048 .f32) (xs0 : Vec F S1x2048 .f32) :
    out0_C_5 c i arg2 harg2 arg3 harg3 arg4 harg4 arg5 harg5 arg6 harg6 arg7 harg7 arg8 harg8 arg9 harg9 hc0 hc1 x0 x1 x2 x3 xs0 = k0_pay6 x1 (k0_pay3 x0 x2 x3 xs0) := by
  unfold out0_C_5
  rw [View.read_writes_eq_canon _ _ _ (cover0_C_5 c i arg2 harg2 arg3 harg3 arg4 harg4 arg5 harg5 arg6 harg6 arg7 harg7 arg8 harg8 arg9 harg9 hc0 hc1 x0 x1 x2 x3 xs0)]
  unfold kernelRun0_C
  dsimp only
  sl_unfold_words
  rw [View.canon_unit_zero hz2]
  simp only [View.readAt_eq_ld, harg2.read_unread, harg3.read_unread, harg4.read_unread, harg5.read_unread, harg9.read_unread,
    View.ld_unit_zero (S := S512) hz1, View.ld_unit_zero (S := S512x2048) hz2, View.ld_unit_zero (S := S1x2048) hz2,
    View.readCov_unit_zero (S := S1x2048) _ hz2]

end Cert.KernelIdeal.TileValues

end
-- ==== Proof.TileAt.lean ====
/-
  What one grid step's stores hold, entry by entry, over the extended reals. A step sees a tile of 512 rows and
  2048 columns: the rows' input spikes `s`, the columns' voltages `v`, the tiles `S` and `W` of the synapse state
  and of the weights, and the running column sums `acc`.

    the synapse tile stored:      S k q · a + W k q · s k
    the running sums stored:      acc q + Σ_k (synapse tile) k q
    the spikes stored (as words): [v q · b ≥ θ], zero-extended to 32 bits
    the voltages stored:          (v q · b + acc q) − [v q · b ≥ θ] · θ
-/
import proofs.«133276_j2894807957745_1_alg».proof.Proof.Gen.KernelIdeal.Skeleton
import proofs.«133276_j2894807957745_1_alg».proof.Proof.LifStep
import Idealize.ShloMosaic.Lib.ValueIdx
import Idealize.ShloMosaic.Lib.ValueLayout
import Idealize.ShloMosaic.Lib.Pipeline.Value
import Idealize.ShloMosaic.PureOps.Ideal.Laws

noncomputable section

open Idealize.ShloMosaic Idealize.ShloMosaic.ValueIdx

namespace Cert.KernelIdeal.TileAt

open Cert.KernelIdeal Cert.KernelIdeal.Gen Cert.LifStep

/-- A vector of length `a` as a column `[a, 1]` reads, at `(p, u)`, the vector at `p`. -/
theorem column_apply {α : Type} {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    omega)

/-- A column `[a, 1]` spread over `b` columns reads, at `(p, q)`, the column at `p`. -/
theorem acrossColumns_apply {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- The reduced index `q` with row `k` put back is `(k, q)`. -/
theorem lift_row (q : Fin 2048) (k : Fin 512) :
    Facts₀.reduces_S512x2048_S2048.lift (ix1 q) k = ix2 k q :=
  funext fun a => Fin.ext (by match a with | ⟨0, _⟩ => rfl | ⟨1, _⟩ => rfl)

variable [Facts]

/-- The synapse tile stored. -/
theorem synTile_apply (s : Vec Ideal S512 .f32) (S W : Vec Ideal S512x2048 .f32) (k : Fin 512) (q : Fin 2048) :
    k0_pay2 (F := Ideal) s S W (ix2 k q) = S (ix2 k q) * synDecay + W (ix2 k q) * s (ix1 k) := by
  unfold k0_pay2
  exact congrArg (fun z => S (ix2 k q) * synDecay + W (ix2 k q) * z)
    ((acrossColumns_apply _ _ k q).trans (column_apply s _ k 0))

/-- The zero the running sums start from. -/
theorem zeroRow_apply (j : S1x2048.Idx) : k0_pay1 (F := Ideal) j = 0 := by
  unfold k0_pay1
  refine (congrFun (shapeCast_self _ _) j).trans ?_
  exact Ideal.ofBits_zero_f32

/-- The running sums stored: the sums before, plus the tile's column sums. -/
theorem accTile_apply (s : Vec Ideal S512 .f32) (S W : Vec Ideal S512x2048 .f32) (acc : Vec Ideal S1x2048 .f32)
    (u : Fin 1) (q : Fin 2048) :
    k0_pay3 (F := Ideal) s S W acc (ix2 u q) = acc (ix2 u q) + ∑ k : Fin 512, k0_pay2 (F := Ideal) s S W (ix2 k q) := by
  unfold k0_pay3
  refine (congrFun (shapeCast_self _ _) (ix2 u q)).trans ?_
  refine congrArg (fun z => acc (ix2 u q) + z) ?_
  refine (shapeCast_a_1a_apply _ _ u q).trans ?_
  refine (Ideal.multiReduction_add_single _ _ _ _ _ (ix1 q)).trans ?_
  exact Finset.sum_congr rfl fun k _ => congrArg _ (lift_row q k)

/-- A one-bit word widened to 32 bits and read as a signed integer is the bit. -/
theorem bit_toInt (b : BitVec 1) : (b.setWidth 32).toInt = (b.toNat : ℤ) := by
  revert b; decide

/-- The spikes stored. -/
theorem spikeTile_apply (v : Vec Ideal S1x2048 .f32) (j : S1x2048.Idx) :
    k0_pay7 (F := Ideal) v j = (Ideal.cmp .oge (v j * voltDecay) thresh).setWidth 32 := rfl

/-- The voltages stored. -/
theorem voltTile_apply (v acc : Vec Ideal S1x2048 .f32) (j : S1x2048.Idx) :
    k0_pay6 (F := Ideal) v acc j
      = (v j * voltDecay + acc j) - (((Ideal.cmp .oge (v j * voltDecay) thresh).toNat : ℝ) : EReal) * thresh := by
  have e : k0_pay6 (F := Ideal) v acc j
      = (v j * voltDecay + acc j) - ((((Ideal.cmp .oge (v j * voltDecay) thresh).setWidth 32).toInt : ℝ) : EReal) * thresh := rfl
  rw [e, bit_toInt]
  rfl

end Cert.KernelIdeal.TileAt

end
-- ==== Proof.ColumnSums.lean ====
/-
  The running column sums across the grid. The grid has 4 column tiles of 2048 columns, each visited for 16 row
  tiles of 512 rows in turn: step `n` is row tile `n % 16` of column tile `n / 16`. After step `n` the running
  sums hold, at column `q` of the tile, the sum of the new synapse state over the rows of the first `n % 16 + 1`
  row tiles in that column — by induction on the step: a first row tile starts from zero, each later one adds its
  512 rows to what the step before left.
-/
import proofs.«133276_j2894807957745_1_alg».proof.Proof.Gen.KernelIdeal.Frame
import proofs.«133276_j2894807957745_1_alg».proof.Proof.LifStep
import proofs.«133276_j2894807957745_1_alg».proof.Proof.TileValues
import proofs.«133276_j2894807957745_1_alg».proof.Proof.TileAt
import Idealize.ShloMosaic.Lib.Pipeline.Value

noncomputable section

open Idealize.ShloMosaic Idealize.ShloMosaic.TcCoe Idealize.SL.Sem Idealize.ShloMosaic.ValueIdx
open Idealize.ShloMosaic.Pipeline (Dat)

namespace Cert.KernelIdeal.Step

open Cert.KernelIdeal Cert.KernelIdeal.Gen Cert.LifStep Cert.KernelIdeal.TileAt Cert.KernelIdeal.TileValues

variable (m : (ℓ : Loc nD τ sig) → Buf (Elt Ideal) ℓ)

/-- The four argument arrays as the kernel finds them, and their tiles at a grid step. -/
abbrev spk (c : Dev nD) : Vec Ideal S8192 .f32 := V m c main_arg0
abbrev vol (c : Dev nD) : Vec Ideal S1x8192 .f32 := V m c main_arg1
abbrev syn (c : Dev nD) : Vec Ideal S8192x8192 .f32 := V m c main_arg2
abbrev wts (c : Dev nD) : Vec Ideal S8192x8192 .f32 := V m c main_arg3
abbrev spkT (c : Dev nD) (t : Fin cfg0.N) : Vec Ideal S512 .f32 := iblk m c 0 t
abbrev volT (c : Dev nD) (t : Fin cfg0.N) : Vec Ideal S1x2048 .f32 := iblk m c 1 t
abbrev synT (c : Dev nD) (t : Fin cfg0.N) : Vec Ideal S512x2048 .f32 := iblk m c 2 t
abbrev wtsT (c : Dev nD) (t : Fin cfg0.N) : Vec Ideal S512x2048 .f32 := iblk m c 3 t

/-- Which tile each window is on at step `t`: row tile `t % 16`, column tile `t / 16`. -/
theorem tile_index : ∀ t : Fin cfg0.N,
    win0_0.index t (0 : Fin 1) = t.val % 16
    ∧ win0_1.index t (0 : Fin 2) = 0 ∧ win0_1.index t (1 : Fin 2) = t.val / 16
    ∧ win0_2.index t (0 : Fin 2) = t.val % 16 ∧ win0_2.index t (1 : Fin 2) = t.val / 16
    ∧ win0_3.index t (0 : Fin 2) = t.val % 16 ∧ win0_3.index t (1 : Fin 2) = t.val / 16
    ∧ win0_4.index t (0 : Fin 2) = 0 ∧ win0_4.index t (1 : Fin 2) = t.val / 16
    ∧ win0_5.index t (0 : Fin 2) = 0 ∧ win0_5.index t (1 : Fin 2) = t.val / 16
    ∧ win0_6.index t (0 : Fin 2) = t.val % 16 ∧ win0_6.index t (1 : Fin 2) = t.val / 16 :=
  (by decide +kernel : ∀ t : Fin grid0.N, _)

/-! ## The tiles, read at an entry -/

theorem spkT_apply (c : Dev nD) (t : Fin cfg0.N) (k : Fin 512) (r : Fin 8192) (hr : r.val = 512 * (t.val % 16) + k.val) :
    spkT m c t (ix1 k) = spk m c (ix1 r) := by
  obtain ⟨e0, -⟩ := tile_index t
  show iblk m c 0 t (ix1 k) = V m c main_arg0 (ix1 r)
  unfold iblk
  rw [View.read_apply]
  show V m c main_arg0 _ = V m c main_arg0 _
  refine congrArg (V m c main_arg0) (funext fun a => Fin.ext ?_)
  match a with
  | ⟨0, _⟩ => show win0_0.index t (0 : Fin 1) * 512 + 1 * k.val = r.val; omega

theorem volT_apply (c : Dev nD) (t : Fin cfg0.N) (u : Fin 1) (q : Fin 2048) (p : Fin 8192) (hp : p.val = 2048 * (t.val / 16) + q.val) :
    volT m c t (ix2 u q) = vol m c (ix2 (0 : Fin 1) p) := by
  obtain ⟨-, e0, e1, -⟩ := tile_index t
  have hu : u.val = 0 := by omega
  show iblk m c 1 t (ix2 u q) = V m c main_arg1 (ix2 (0 : Fin 1) p)
  unfold iblk
  rw [View.read_apply]
  show V m c main_arg1 _ = V m c main_arg1 _
  refine congrArg (V m c main_arg1) (funext fun a => Fin.ext ?_)
  match a with
  | ⟨0, _⟩ => show win0_1.index t (0 : Fin 2) * 1 + 1 * u.val = 0; omega
  | ⟨1, _⟩ => show win0_1.index t (1 : Fin 2) * 2048 + 1 * q.val = p.val; omega

theorem synT_apply (c : Dev nD) (t : Fin cfg0.N) (k : Fin 512) (q : Fin 2048) (r p : Fin 8192)
    (hr : r.val = 512 * (t.val % 16) + k.val) (hp : p.val = 2048 * (t.val / 16) + q.val) :
    synT m c t (ix2 k q) = syn m c (ix2 r p) := by
  obtain ⟨-, -, -, e0, e1, -⟩ := tile_index t
  show iblk m c 2 t (ix2 k q) = V m c main_arg2 (ix2 r p)
  unfold iblk
  rw [View.read_apply]
  show V m c main_arg2 _ = V m c main_arg2 _
  refine congrArg (V m c main_arg2) (funext fun a => Fin.ext ?_)
  match a with
  | ⟨0, _⟩ => show win0_2.index t (0 : Fin 2) * 512 + 1 * k.val = r.val; omega
  | ⟨1, _⟩ => show win0_2.index t (1 : Fin 2) * 2048 + 1 * q.val = p.val; omega

theorem wtsT_apply (c : Dev nD) (t : Fin cfg0.N) (k : Fin 512) (q : Fin 2048) (r p : Fin 8192)
    (hr : r.val = 512 * (t.val % 16) + k.val) (hp : p.val = 2048 * (t.val / 16) + q.val) :
    wtsT m c t (ix2 k q) = wts m c (ix2 r p) := by
  obtain ⟨-, -, -, -, -, e0, e1, -⟩ := tile_index t
  show iblk m c 3 t (ix2 k q) = V m c main_arg3 (ix2 r p)
  unfold iblk
  rw [View.read_apply]
  show V m c main_arg3 _ = V m c main_arg3 _
  refine congrArg (V m c main_arg3) (funext fun a => Fin.ext ?_)
  match a with
  | ⟨0, _⟩ => show win0_3.index t (0 : Fin 2) * 512 + 1 * k.val = r.val; omega
  | ⟨1, _⟩ => show win0_3.index t (1 : Fin 2) * 2048 + 1 * q.val = p.val; omega

/-! ## The synapse tile is the new synapse state's tile -/

/-- The new synapse state of the arrays the kernel finds. -/
abbrev synNew (c : Dev nD) : Vec Ideal S8192x8192 .f32 := synNext (spk m c) (syn m c) (wts m c)

theorem synTile_eq (c : Dev nD) (t : Fin cfg0.N) (k : Fin 512) (q : Fin 2048) (r p : Fin 8192)
    (hr : r.val = 512 * (t.val % 16) + k.val) (hp : p.val = 2048 * (t.val / 16) + q.val) :
    k0_pay2 (F := Ideal) (spkT m c t) (synT m c t) (wtsT m c t) (ix2 k q) = synNew m c (ix2 r p) := by
  refine (synTile_apply (spkT m c t) (synT m c t) (wtsT m c t) k q).trans ?_
  rw [synT_apply m c t k q r p hr hp, wtsT_apply m c t k q r p hr hp, spkT_apply m c t k r hr]
  rfl

/-- The synapse tile stored at step `t`, whichever kind of step it is. -/
theorem synOut_eq (c : Dev nD) (t : Fin cfg0.N) :
    (outsAt0 m c t.val t.isLt).2.2.1 = k0_pay2 (F := Ideal) (spkT m c t) (synT m c t) (wtsT m c t) := by
  by_cases h0 : t.val % 16 = 0
  · have h1 : ¬t.val % 16 = 15 := by omega
    rw [outsAt0_A m c t h0 h1]; dsimp only
    exact first_syn _ _ _ _ _ _ _ _ _ _ _ _ _ _ _ _ _ _ _ _ (spkT m c t) (volT m c t) (synT m c t) (wtsT m c t)
  · by_cases h1 : t.val % 16 = 15
    · rw [outsAt0_C m c t h0 h1]; dsimp only
      exact last_syn _ _ _ _ _ _ _ _ _ _ _ _ _ _ _ _ _ _ _ _ (spkT m c t) (volT m c t) (synT m c t) (wtsT m c t) _
    · rw [outsAt0_B m c t h0 h1]; dsimp only
      exact mid_syn _ _ _ _ _ _ _ _ _ _ _ _ _ _ _ _ _ _ _ _ (spkT m c t) (volT m c t) (synT m c t) (wtsT m c t) _

/-! ## The running sums -/

/-- Column `p` of the new synapse state, as a function of the row. -/
abbrev col (c : Dev nD) (p : Fin 8192) : Fin 8192 → EReal := fun r => synNew m c (ix2 r p)

/-- One step's update of the running sums: what was there, plus the 512 rows of row tile `i` in the column. -/
theorem acc_step (c : Dev nD) (t : Fin cfg0.N) (i : ℕ) (hi : i < 16) (hti : t.val % 16 = i) (acc : Vec Ideal S1x2048 .f32)
    (u : Fin 1) (q : Fin 2048) (p : Fin 8192) (hp : p.val = 2048 * (t.val / 16) + q.val) :
    k0_pay3 (F := Ideal) (spkT m c t) (synT m c t) (wtsT m c t) acc (ix2 u q)
      = acc (ix2 u q) + ∑ k : Fin 512, col m c p (tileRow i hi k) := by
  refine (accTile_apply (spkT m c t) (synT m c t) (wtsT m c t) acc u q).trans ?_
  refine congrArg (fun z => acc (ix2 u q) + z) (Finset.sum_congr rfl fun k _ => ?_)
  exact synTile_eq m c t k q (tileRow i hi k) p (by rw [tileRow_val, hti]) hp

/-- THE INVARIANT: after step `n` the running sums hold the column sums over the first `n % 16 + 1` row tiles. -/
theorem acc_eq (c : Dev nD) : ∀ (n : ℕ) (hn : n < cfg0.N) (u : Fin 1) (q : Fin 2048) (p : Fin 8192),
    p.val = 2048 * (n / 16) + q.val →
    (outsAt0 m c n hn).2.2.2 (ix2 u q) = ∑ r ∈ rowsBelow (n % 16 + 1), col m c p r
  | 0, hn, u, q, p, hp => by
    rw [outsAt0_A m c ⟨0, hn⟩ rfl (by show ¬(0 : ℕ) % 16 = 15; decide)]; dsimp only
    refine (congrFun (first_acc _ _ _ _ _ _ _ _ _ _ _ _ _ _ _ _ _ _ _ _ (spkT m c ⟨0, hn⟩) (volT m c ⟨0, hn⟩) (synT m c ⟨0, hn⟩) (wtsT m c ⟨0, hn⟩)) (ix2 u q)).trans ?_
    rw [acc_step m c ⟨0, hn⟩ 0 (by decide) rfl _ u q p hp, zeroRow_apply, zero_add,
      sum_rowsBelow_succ _ 0 (by decide), sum_rowsBelow_zero, zero_add]
  | n + 1, hn, u, q, p, hp => by
    have hN : n + 1 < 64 := lt_of_lt_of_eq hn (show cfg0.N = 64 from N_0)
    by_cases h0 : (n + 1) % 16 = 0
    · have h1 : ¬(n + 1) % 16 = 15 := by omega
      rw [outsAt0_A m c ⟨n + 1, hn⟩ h0 h1]; dsimp only
      refine (congrFun (first_acc _ _ _ _ _ _ _ _ _ _ _ _ _ _ _ _ _ _ _ _ (spkT m c ⟨n + 1, hn⟩) (volT m c ⟨n + 1, hn⟩) (synT m c ⟨n + 1, hn⟩) (wtsT m c ⟨n + 1, hn⟩)) (ix2 u q)).trans ?_
      rw [acc_step m c ⟨n + 1, hn⟩ 0 (by decide) h0 _ u q p hp, zeroRow_apply, zero_add, h0,
        sum_rowsBelow_succ _ 0 (by decide), sum_rowsBelow_zero, zero_add]
    · have hi : (n + 1) % 16 = n % 16 + 1 := by omega
      have hp' : p.val = 2048 * (n / 16) + q.val := by omega
      have hlt : n % 16 + 1 < 16 := by omega
      have hstep : ∀ acc : Vec Ideal S1x2048 .f32, acc = (outsAt0 m c n (Nat.lt_of_succ_lt hn)).2.2.2 →
          k0_pay3 (F := Ideal) (spkT m c ⟨n + 1, hn⟩) (synT m c ⟨n + 1, hn⟩) (wtsT m c ⟨n + 1, hn⟩) acc (ix2 u q)
            = ∑ r ∈ rowsBelow ((n + 1) % 16 + 1), col m c p r := by
        intro acc hacc
        rw [acc_step m c ⟨n + 1, hn⟩ (n % 16 + 1) hlt hi acc u q p hp, hacc, acc_eq c n (Nat.lt_of_succ_lt hn) u q p hp', hi,
          sum_rowsBelow_succ _ (n % 16 + 1) hlt]
      by_cases h1 : (n + 1) % 16 = 15
      · rw [outsAt0_C m c ⟨n + 1, hn⟩ h0 h1]; dsimp only
        refine (congrFun (last_acc _ _ _ _ _ _ _ _ _ _ _ _ _ _ _ _ _ _ _ _ (spkT m c ⟨n + 1, hn⟩) (volT m c ⟨n + 1, hn⟩) (synT m c ⟨n + 1, hn⟩) (wtsT m c ⟨n + 1, hn⟩) _) (ix2 u q)).trans ?_
        exact hstep _ rfl
      · rw [outsAt0_B m c ⟨n + 1, hn⟩ h0 h1]; dsimp only
        refine (congrFun (mid_acc _ _ _ _ _ _ _ _ _ _ _ _ _ _ _ _ _ _ _ _ (spkT m c ⟨n + 1, hn⟩) (volT m c ⟨n + 1, hn⟩) (synT m c ⟨n + 1, hn⟩) (wtsT m c ⟨n + 1, hn⟩) _) (ix2 u q)).trans ?_
        exact hstep _ rfl

/-! ## What a last row tile stores beside the synapse tile -/

/-- The spikes stored at a last row tile are the column tile's spikes, as 32-bit words. -/
theorem spikesOut_eq (c : Dev nD) (t : Fin cfg0.N) (h1 : t.val % 16 = 15) (u : Fin 1) (q : Fin 2048) (p : Fin 8192)
    (hp : p.val = 2048 * (t.val / 16) + q.val) :
    (outsAt0 m c t.val t.isLt).1 (ix2 u q) = (fired (vol m c) (ix2 (0 : Fin 1) p)).setWidth 32 := by
  have h0 : ¬t.val % 16 = 0 := by omega
  rw [outsAt0_C m c t h0 h1]; dsimp only
  refine (congrFun (last_spikes _ _ _ _ _ _ _ _ _ _ _ _ _ _ _ _ _ _ _ _ (spkT m c t) (volT m c t) (synT m c t) (wtsT m c t) _) (ix2 u q)).trans ?_
  rw [spikeTile_apply, volT_apply m c t u q p hp]
  rfl

/-- The voltages stored at a last row tile are the column tile's new voltages: the running sums are complete. -/
theorem voltOut_eq (c : Dev nD) (t : Fin cfg0.N) (h1 : t.val % 16 = 15) (u : Fin 1) (q : Fin 2048) (p : Fin 8192)
    (hp : p.val = 2048 * (t.val / 16) + q.val) :
    (outsAt0 m c t.val t.isLt).2.1 (ix2 u q) = voltNext (spk m c) (vol m c) (syn m c) (wts m c) (ix2 (0 : Fin 1) p) := by
  have h0 : ¬t.val % 16 = 0 := by omega
  have hacc := acc_eq m c t.val t.isLt u q p hp
  rw [outsAt0_C m c t h0 h1] at hacc ⊢; dsimp only at hacc ⊢
  rw [last_acc] at hacc
  refine (congrFun (last_volt _ _ _ _ _ _ _ _ _ _ _ _ _ _ _ _ _ _ _ _ (spkT m c t) (volT m c t) (synT m c t) (wtsT m c t) _) (ix2 u q)).trans ?_
  rw [voltTile_apply, hacc, volT_apply m c t u q p hp, h1, sum_rowsBelow_all]
  rfl

end Cert.KernelIdeal.Step

end
-- ==== Proof.KernelArrays.lean ====
/-
  The arrays after the kernel's run. Every grid step writes its synapse tile back, and the 64 tiles cover the
  8192 × 8192 array, so the synapse output is the new synapse state. The spike words and the new voltages are
  written back at the last row tile of each of the four column tiles, whose blocks cover the 8192 columns. The
  lines after the kernel turn the spike words back into bits: a bit widened to a word is nonzero exactly when the
  bit is set.
-/
import proofs.«133276_j2894807957745_1_alg».proof.Proof.Gen.KernelIdeal.Frame
import proofs.«133276_j2894807957745_1_alg».proof.Proof.ColumnSums
import Idealize.ShloMosaic.Lib.Pipeline.Value
import Idealize.ShloMosaic.Lib.StableHlo.Run

noncomputable section

open Idealize.ShloMosaic Idealize.ShloMosaic.TcCoe Idealize.SL.Sem Idealize.ShloMosaic.ValueIdx
open Idealize.ShloMosaic.Pipeline (Dat)

namespace Cert.KernelIdeal.Arrays

open Cert.KernelIdeal Cert.KernelIdeal.Gen Cert.LifStep Cert.KernelIdeal.Step

variable (m : (ℓ : Loc nD τ sig) → Buf (Elt Ideal) ℓ) (ρ : Dev nD → PrngReg)

/-- The spikes as the kernel stores them: each bit widened to a 32-bit word. -/
abbrev spikeWords (c : Dev nD) : Vec Ideal S1x8192 .i32 := fun i => (fired (vol m c) i).setWidth 32

/-- The new voltages of the arrays the kernel finds. -/
abbrev voltNew (c : Dev nD) : Vec Ideal S1x8192 .f32 := voltNext (spk m c) (vol m c) (syn m c) (wts m c)

/-! ## Membership in a step's block -/

theorem mem_tile4 (t : Fin cfg0.N) (i : S1x8192.Idx) :
    i ∈ ((cfg0.win 4).blk t).view.set ↔ ∀ a : Fin 2, win0_4.index t a * S1x2048.size a ≤ (i a).val ∧ (i a).val < win0_4.index t a * S1x2048.size a + S1x2048.size a := by
  show i ∈ ((View.whole main_v0_0).slice (win0_4.rect t)).set ↔ _
  rw [View.set_slice_whole, Rect.mem_set_unit]
  exact Iff.rfl

theorem mem_tile5 (t : Fin cfg0.N) (i : S1x8192.Idx) :
    i ∈ ((cfg0.win 5).blk t).view.set ↔ ∀ a : Fin 2, win0_5.index t a * S1x2048.size a ≤ (i a).val ∧ (i a).val < win0_5.index t a * S1x2048.size a + S1x2048.size a := by
  show i ∈ ((View.whole main_v0_1).slice (win0_5.rect t)).set ↔ _
  rw [View.set_slice_whole, Rect.mem_set_unit]
  exact Iff.rfl

theorem mem_tile6 (t : Fin cfg0.N) (i : S8192x8192.Idx) :
    i ∈ ((cfg0.win 6).blk t).view.set ↔ ∀ a : Fin 2, win0_6.index t a * S512x2048.size a ≤ (i a).val ∧ (i a).val < win0_6.index t a * S512x2048.size a + S512x2048.size a := by
  show i ∈ ((View.whole main_v0_2).slice (win0_6.rect t)).set ↔ _
  rw [View.set_slice_whole, Rect.mem_set_unit]
  exact Iff.rfl

/-! ## What a step writes back is its block of the whole-array result -/

theorem flushed6_eq (c : Dev nD) (t : Fin cfg0.N) :
    (dats m 0 c).flushed 6 t = ((cfg0.win 6).blk t).view.read (Elt Ideal) (synNew m c) := by
  show (cfg0.win 6).cut (grid0.coords t) ((dats m 0 c).after 6 t) = _
  rw [after0_6, synOut_eq]
  obtain ⟨-, -, -, -, -, -, -, -, -, -, -, e0, e1⟩ := tile_index t
  have hN : t.val < 64 := lt_of_lt_of_eq t.isLt (show cfg0.N = 64 from N_0)
  funext j
  have hk : (j 0).val < 512 := (j 0).isLt
  have hq : (j 1).val < 2048 := (j 1).isLt
  refine (congrArg _ (eq_ix2 j)).trans ?_
  refine (synTile_eq m c t (j 0) (j 1) ⟨512 * (t.val % 16) + (j 0).val, by omega⟩ ⟨2048 * (t.val / 16) + (j 1).val, by omega⟩ rfl rfl).trans ?_
  rw [View.read_apply]
  refine congrArg (synNew m c) (funext fun a => Fin.ext ?_)
  match a with
  | ⟨0, _⟩ => show 512 * (t.val % 16) + (j 0).val = win0_6.index t (0 : Fin 2) * 512 + 1 * (j 0).val; omega
  | ⟨1, _⟩ => show 2048 * (t.val / 16) + (j 1).val = win0_6.index t (1 : Fin 2) * 2048 + 1 * (j 1).val; omega

theorem flushed4_eq (c : Dev nD) (t : Fin cfg0.N) (hf : (cfg0.win 4).flush t = true) :
    (dats m 0 c).flushed 4 t = ((cfg0.win 4).blk t).view.read (Elt Ideal) (spikeWords m c) := by
  have h1 : t.val % 16 = 15 := (flush0_4 t).mp hf
  show (cfg0.win 4).cut (grid0.coords t) ((dats m 0 c).after 4 t) = _
  rw [after0_4]
  obtain ⟨-, -, -, -, -, -, -, e0, e1, -⟩ := tile_index t
  have hN : t.val < 64 := lt_of_lt_of_eq t.isLt (show cfg0.N = 64 from N_0)
  funext j
  have hu : (j 0).val < 1 := (j 0).isLt
  have hq : (j 1).val < 2048 := (j 1).isLt
  refine (congrArg _ (eq_ix2 j)).trans ?_
  refine (spikesOut_eq m c t h1 (j 0) (j 1) ⟨2048 * (t.val / 16) + (j 1).val, by omega⟩ rfl).trans ?_
  rw [View.read_apply]
  refine congrArg (spikeWords m c) (funext fun a => Fin.ext ?_)
  match a with
  | ⟨0, _⟩ => show 0 = win0_4.index t (0 : Fin 2) * 1 + 1 * (j 0).val; omega
  | ⟨1, _⟩ => show 2048 * (t.val / 16) + (j 1).val = win0_4.index t (1 : Fin 2) * 2048 + 1 * (j 1).val; omega

theorem flushed5_eq (c : Dev nD) (t : Fin cfg0.N) (hf : (cfg0.win 5).flush t = true) :
    (dats m 0 c).flushed 5 t = ((cfg0.win 5).blk t).view.read (Elt Ideal) (voltNew m c) := by
  have h1 : t.val % 16 = 15 := (flush0_5 t).mp hf
  show (cfg0.win 5).cut (grid0.coords t) ((dats m 0 c).after 5 t) = _
  rw [after0_5]
  obtain ⟨-, -, -, -, -, -, -, -, -, e0, e1, -⟩ := tile_index t
  have hN : t.val < 64 := lt_of_lt_of_eq t.isLt (show cfg0.N = 64 from N_0)
  funext j
  have hu : (j 0).val < 1 := (j 0).isLt
  have hq : (j 1).val < 2048 := (j 1).isLt
  refine (congrArg _ (eq_ix2 j)).trans ?_
  refine (voltOut_eq m c t h1 (j 0) (j 1) ⟨2048 * (t.val / 16) + (j 1).val, by omega⟩ rfl).trans ?_
  rw [View.read_apply]
  refine congrArg (voltNew m c) (funext fun a => Fin.ext ?_)
  match a with
  | ⟨0, _⟩ => show 0 = win0_5.index t (0 : Fin 2) * 1 + 1 * (j 0).val; omega
  | ⟨1, _⟩ => show 2048 * (t.val / 16) + (j 1).val = win0_5.index t (1 : Fin 2) * 2048 + 1 * (j 1).val; omega

/-! ## The blocks written back cover the arrays -/

theorem cover6 (i : S8192x8192.Idx) : ∃ t : Fin cfg0.N, (cfg0.win 6).flush t = true ∧ i ∈ ((cfg0.win 6).blk t).view.set := by
  have h0 : (i 0).val < 8192 := (i 0).isLt
  have h1 : (i 1).val < 8192 := (i 1).isLt
  have hN : cfg0.N = 64 := N_0
  have hlt : 16 * ((i 1).val / 2048) + (i 0).val / 512 < cfg0.N := by rw [hN]; omega
  refine ⟨⟨16 * ((i 1).val / 2048) + (i 0).val / 512, hlt⟩, flush0_6 _, ?_⟩
  rw [mem_tile6]
  obtain ⟨-, -, -, -, -, -, -, -, -, -, -, e0, e1⟩ := tile_index ⟨16 * ((i 1).val / 2048) + (i 0).val / 512, hlt⟩
  dsimp only at e0 e1
  intro a
  match a with
  | ⟨0, _⟩ =>
    show win0_6.index _ (0 : Fin 2) * 512 ≤ (i 0).val ∧ (i 0).val < win0_6.index _ (0 : Fin 2) * 512 + 512
    rw [e0]; omega
  | ⟨1, _⟩ =>
    show win0_6.index _ (1 : Fin 2) * 2048 ≤ (i 1).val ∧ (i 1).val < win0_6.index _ (1 : Fin 2) * 2048 + 2048
    rw [e1]; omega

theorem cover4 (i : S1x8192.Idx) : ∃ t : Fin cfg0.N, (cfg0.win 4).flush t = true ∧ i ∈ ((cfg0.win 4).blk t).view.set := by
  have h0 : (i 0).val < 1 := (i 0).isLt
  have h1 : (i 1).val < 8192 := (i 1).isLt
  have hN : cfg0.N = 64 := N_0
  have hlt : 16 * ((i 1).val / 2048) + 15 < cfg0.N := by rw [hN]; omega
  refine ⟨⟨16 * ((i 1).val / 2048) + 15, hlt⟩, (flush0_4 _).mpr (by dsimp only; omega), ?_⟩
  rw [mem_tile4]
  obtain ⟨-, -, -, -, -, -, -, e0, e1, -⟩ := tile_index ⟨16 * ((i 1).val / 2048) + 15, hlt⟩
  dsimp only at e0 e1
  intro a
  match a with
  | ⟨0, _⟩ =>
    show win0_4.index _ (0 : Fin 2) * 1 ≤ (i 0).val ∧ (i 0).val < win0_4.index _ (0 : Fin 2) * 1 + 1
    rw [e0]; omega
  | ⟨1, _⟩ =>
    show win0_4.index _ (1 : Fin 2) * 2048 ≤ (i 1).val ∧ (i 1).val < win0_4.index _ (1 : Fin 2) * 2048 + 2048
    rw [e1]; omega

theorem cover5 (i : S1x8192.Idx) : ∃ t : Fin cfg0.N, (cfg0.win 5).flush t = true ∧ i ∈ ((cfg0.win 5).blk t).view.set := by
  have h0 : (i 0).val < 1 := (i 0).isLt
  have h1 : (i 1).val < 8192 := (i 1).isLt
  have hN : cfg0.N = 64 := N_0
  have hlt : 16 * ((i 1).val / 2048) + 15 < cfg0.N := by rw [hN]; omega
  refine ⟨⟨16 * ((i 1).val / 2048) + 15, hlt⟩, (flush0_5 _).mpr (by dsimp only; omega), ?_⟩
  rw [mem_tile5]
  obtain ⟨-, -, -, -, -, -, -, -, -, e0, e1, -⟩ := tile_index ⟨16 * ((i 1).val / 2048) + 15, hlt⟩
  dsimp only at e0 e1
  intro a
  match a with
  | ⟨0, _⟩ =>
    show win0_5.index _ (0 : Fin 2) * 1 ≤ (i 0).val ∧ (i 0).val < win0_5.index _ (0 : Fin 2) * 1 + 1
    rw [e0]; omega
  | ⟨1, _⟩ =>
    show win0_5.index _ (1 : Fin 2) * 2048 ≤ (i 1).val ∧ (i 1).val < win0_5.index _ (1 : Fin 2) * 2048 + 2048
    rw [e1]; omega

/-! ## The three output arrays after the run -/

theorem final6 (c : Dev nD) : (dats m 0 c).arrAt 6 cfg0.N = synNew m c :=
  (dats m 0 c).arrAt_eq_of_cover 6 (synNew m c) (fun t _ => flushed6_eq m c t) cover6

theorem final4 (c : Dev nD) : (dats m 0 c).arrAt 4 cfg0.N = spikeWords m c :=
  (dats m 0 c).arrAt_eq_of_cover 4 (spikeWords m c) (flushed4_eq m c) cover4

theorem final5 (c : Dev nD) : (dats m 0 c).arrAt 5 cfg0.N = voltNew m c :=
  (dats m 0 c).arrAt_eq_of_cover 5 (voltNew m c) (flushed5_eq m c) cover5

/-! ## The lines after the kernel: words back to bits -/

/-- A bit widened to a word differs from the zero word exactly when the bit is set. -/
theorem word_ne_zero (b : BitVec 1) : IntOp.cmpi .ne (b.setWidth 32) (0#32) = b := by
  revert b; decide

theorem tail_spikes (c : Dev nD) :
    Pipeline.afterTail₀ cfgs (dats m) 0 (V0 m) [hostOps1] c main_v3 = fired (vol m c) := by
  unfold Pipeline.afterTail₀
  show StableHlo.after hostOps1 _ (Proc.devRef .tc main_v3) = _
  after_results
  have hw : Pipeline.withArrays (cfgs 0).spec c (V0 m c) (fun w => (dats m 0 c).arrAt w (cfgs 0).N) (Proc.devRef .tc main_v0_0)
      = spikeWords m c :=
    (Pipeline.withArrays_arr spec0 launch0.win.arr_inj c _ _ 4).trans (final4 m c)
  rw [hw]
  funext i
  exact word_ne_zero (fired (vol m c) i)

/-! ## The run, read -/

/-- Every weakly fair execution of the kernel's program terminates with the spikes at `fired`, the voltages at
    `voltNext` and the synapse state at `synNext` of the four arguments, which end unchanged. -/
theorem run : θ_run defs (onTc (τ := τ) (main (F := Ideal))) ⟨m, fun _ => 0, ρ⟩ fun r => ∀ c : Dev nD,
      r.2.mem ((c.tc : Thread nD τ).loc main_v3) = fired (vol m c)
      ∧ r.2.mem ((c.tc : Thread nD τ).loc main_v0_1) = voltNew m c
      ∧ r.2.mem ((c.tc : Thread nD τ).loc main_v0_2) = synNew m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨((h c).2 main_v3 (by decide)).trans (tail_spikes m c),
      ((h c).1 5).trans (final5 m c),
      ((h c).1 6).trans (final6 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c)))⟩)
    (run_main m ρ)

end Cert.KernelIdeal.Arrays

end
-- ==== Proof.lean ====
/-
  The kernel evaluates one step of a leaky integrate-and-fire layer tile by tile — 4 column tiles of 2048 columns,
  each crossed in 16 row tiles of 512 rows, the column sums of the new synapse state kept in a running buffer that
  is reset at the first row tile and read at the last — and the reference evaluates it whole. Over the extended
  reals both end with the same three arrays of the same four arguments (`LifStep`): the new synapse state entry by
  entry, the spikes where the decayed voltage has reached the threshold, and the new voltage, whose column sum the
  kernel gathers as sixteen partial sums and the reference as one. Regrouping a sum needs only that addition is
  commutative and associative, so the inputs' finiteness is never used. The idealization rewrote nothing, so
  there is nothing to preserve; the two kernel frames are the generated ones, and the reference's frame is its
  run with the results dropped.
-/
import proofs.«133276_j2894807957745_1_alg».proof.Defs
import proofs.«133276_j2894807957745_1_alg».proof.Proof.Gen.Kernel
import proofs.«133276_j2894807957745_1_alg».proof.Proof.Gen.Kernel.Skeleton
import proofs.«133276_j2894807957745_1_alg».proof.Proof.Gen.Kernel.Launch
import proofs.«133276_j2894807957745_1_alg».proof.Proof.Gen.Kernel.Points
import proofs.«133276_j2894807957745_1_alg».proof.Proof.Gen.Kernel.Frame
import proofs.«133276_j2894807957745_1_alg».proof.Proof.Gen.KernelIdeal
import proofs.«133276_j2894807957745_1_alg».proof.Proof.Gen.KernelIdeal.Skeleton
import proofs.«133276_j2894807957745_1_alg».proof.Proof.Gen.KernelIdeal.Launch
import proofs.«133276_j2894807957745_1_alg».proof.Proof.Gen.KernelIdeal.Points
import proofs.«133276_j2894807957745_1_alg».proof.Proof.Gen.KernelIdeal.Frame
import proofs.«133276_j2894807957745_1_alg».proof.Proof.Gen.ReferenceIdeal
import proofs.«133276_j2894807957745_1_alg».proof.Proof.Gen.ReferenceIdeal.Run
import proofs.«133276_j2894807957745_1_alg».proof.Proof.Gen.ReferenceIdeal.Read
import proofs.«133276_j2894807957745_1_alg».proof.Proof.Gen.Pre_finite_inputs
import proofs.«133276_j2894807957745_1_alg».proof.Proof.LifStep
import proofs.«133276_j2894807957745_1_alg».proof.Proof.RefStep
import proofs.«133276_j2894807957745_1_alg».proof.Proof.KernelArrays
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2.2.2)
    (Cert.ReferenceIdeal.Value.run (F := Ideal) m ρ)

/-- Both programs end at the layer step of arguments that agree. -/
theorem algebraic : Cert.algebraic_KernelIdeal_ReferenceIdeal := by
  intro m ρ m' ρ' _ hagree
  refine ⟨fun c => Cert.LifStep.fired (Cert.KernelIdeal.Step.vol m c),
    fun c => Cert.KernelIdeal.Arrays.voltNew m c,
    fun c => Cert.KernelIdeal.Step.synNew m c,
    Cert.KernelIdeal.Arrays.run m ρ, ?_⟩
  refine (θ_run Cert.ReferenceIdeal.defs _ _).mono (fun _ h c => ?_)
    (Cert.ReferenceIdeal.Value.run (F := Ideal) m' ρ')
  obtain ⟨h3, h16, h9, ha0, ha1, ha2, ha3⟩ := h c
  obtain ⟨e0, e1, e2, e3⟩ := hagree c
  refine ⟨h3.trans ?_, h16.trans ?_, h9.trans ?_, ha0, ha1, ha2, ha3⟩
  · rw [Cert.ReferenceIdeal.Read.val_main_v3_eq, Cert.ReferenceIdeal.RefStep.fired_eq, e1]
    rfl
  · rw [Cert.ReferenceIdeal.Read.val_main_v16_eq, Cert.ReferenceIdeal.RefStep.volt_eq, e0, e1, e2, e3]
    rfl
  · rw [Cert.ReferenceIdeal.Read.val_main_v9_eq, Cert.ReferenceIdeal.RefStep.syn_eq, e0, e2, e3]
    rfl

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
